-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024 : Shape := ⟨2, ![32, 1024]⟩
abbrev S310x1024 : Shape := ⟨2, ![310, 1024]⟩
abbrev S310 : Shape := ⟨1, ![310]⟩
abbrev S1024x310 : Shape := ⟨2, ![1024, 310]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S310x1024 : S_.BroadcastsInDim S310x1024 (![] : Fin 0 → Fin S310x1024.rank)
  reducesTo_S310x1024_S_d0_1 : S310x1024.ReducesTo [0, 1] S_
  bcast_S_S310 : S_.BroadcastsInDim S310 (![] : Fin 0 → Fin S310.rank)
  reducesTo_S310_S_d0 : S310.ReducesTo [0] S_
  bcast_S_S1024x310 : S_.BroadcastsInDim S1024x310 (![] : Fin 0 → Fin S1024x310.rank)
  reducesTo_S1024x310_S_d0_1 : S1024x310.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S310 .f32) (main_arg8 : FVec F S1024x310 .f32) (main_arg9 : FVec F S1024 .f32) (main_v33 : IVec S_ 1) : IVec S_ 1 :=
  let main_v34 : FVec F S310 .f32 := Host.absf main_arg7
  let main_cst_12 : FVec F S_ .f32 := constant S_ .f32 0x7F800000#32
  let main_v35 : FVec F S310 .f32 := broadcastInDim S310 ![] bcast_S_S310 main_cst_12
  let main_v36 : IVec S310 1 := cmpf .olt main_v34 main_v35
  let main_c_13 : IVec S_ 1 := constantI S_ 1 1#1
  let main_v37 : IVec S_ 1 := (fun x v => Host.reduce IntOp.andi x v reducesTo_S310_S_d0 h_S_) main_v36 main_c_13
  let main_v38 : IVec S_ 1 := andi main_v33 main_v37
  let main_v39 : FVec F S1024x310 .f32 := Host.absf main_arg8
  let main_cst_14 : FVec F S_ .f32 := constant S_ .f32 0x7F800000#32
  let main_v40 : FVec F S1024x310 .f32 := broadcastInDim S1024x310 ![] bcast_S_S1024x310 main_cst_14
  let main_v41 : IVec S1024x310 1 := cmpf .olt main_v39 main_v40
  let main_c_15 : IVec S_ 1 := constantI S_ 1 1#1
  let main_v42 : IVec S_ 1 := (fun x v => Host.reduce IntOp.andi x v reducesTo_S1024x310_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x310 .f32) (main_arg5 : FVec F S1024 .f32) (main_arg6 : FVec F S310x1024 .f32) (main_arg7 : FVec F S310 .f32) (main_arg8 : FVec F S1024x310 .f32) (main_arg9 : FVec F S1024 .f32) (main_v13 : IVec S_ 1) (main_v16 : IVec S310 1) : IVec S_ 1 :=
  let main_c_5 : IVec S_ 1 := constantI S_ 1 1#1
  let main_v17 : IVec S_ 1 := (fun x v => Host.reduce IntOp.andi x v reducesTo_S310_S_d0 h_S_) main_v16 main_c_5
  let main_v18 : IVec S_ 1 := andi main_v13 main_v17
  let main_v19 : FVec F S1024x310 .f32 := Host.absf main_arg4
  let main_cst_6 : FVec F S_ .f32 := constant S_ .f32 0x7F800000#32
  let main_v20 : FVec F S1024x310 .f32 := broadcastInDim S1024x310 ![] bcast_S_S1024x310 main_cst_6
  let main_v21 : IVec S1024x310 1 := cmpf .olt main_v19 main_v20
  let main_c_7 : IVec S_ 1 := constantI S_ 1 1#1
  let main_v22 : IVec S_ 1 := (fun x v => Host.reduce IntOp.andi x v reducesTo_S1024x310_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S310x1024 .f32 := Host.absf main_arg6
  let main_cst_10 : FVec F S_ .f32 := constant S_ .f32 0x7F800000#32
  let main_v30 : FVec F S310x1024 .f32 := broadcastInDim S310x1024 ![] bcast_S_S310x1024 main_cst_10
  let main_v31 : IVec S310x1024 1 := cmpf .olt main_v29 main_v30
  let main_c_11 : IVec S_ 1 := constantI S_ 1 1#1
  let main_v32 : IVec S_ 1 := (fun x v => Host.reduce IntOp.andi x v reducesTo_S310x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S32x1024x1024 .f32) (main_arg1 : FVec F S32x1024 .f32) (main_arg2 : FVec F S310x1024 .f32) (main_arg3 : FVec F S310 .f32) (main_arg4 : FVec F S1024x310 .f32) (main_arg5 : FVec F S1024 .f32) (main_arg6 : FVec F S310x1024 .f32) (main_arg7 : FVec F S310 .f32) (main_arg8 : FVec F S1024x310 .f32) (main_arg9 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S310x1024 .f32 := Host.absf main_arg2
  let main_cst_2 : FVec F S_ .f32 := constant S_ .f32 0x7F800000#32
  let main_v10 : FVec F S310x1024 .f32 := broadcastInDim S310x1024 ![] bcast_S_S310x1024 main_cst_2
  let main_v11 : IVec S310x1024 1 := cmpf .olt main_v9 main_v10
  let main_c_3 : IVec S_ 1 := constantI S_ 1 1#1
  let main_v12 : IVec S_ 1 := (fun x v => Host.reduce IntOp.andi x v reducesTo_S310x1024_S_d0_1 h_S_) main_v11 main_c_3
  let main_v13 : IVec S_ 1 := andi main_v8 main_v12
  let main_v14 : FVec F S310 .f32 := Host.absf main_arg3
  let main_cst_4 : FVec F S_ .f32 := constant S_ .f32 0x7F800000#32
  let main_v15 : FVec F S310 .f32 := broadcastInDim S310 ![] bcast_S_S310 main_cst_4
  let main_v16 : IVec S310 1 := cmpf .olt main_v14 main_v15
  fn_part1 (F := F) main_arg4 main_arg5 main_arg6 main_arg7 main_arg8 main_arg9 main_v13 main_v16
-- ==== Kernel.lean ====
abbrev S32x1024x1024 : Shape := ⟨3, ![32, 1024, 1024]⟩
abbrev S32x1024 : Shape := ⟨2, ![32, 1024]⟩
abbrev S310x1024 : Shape := ⟨2, ![310, 1024]⟩
abbrev S310 : Shape := ⟨1, ![310]⟩
abbrev S1024x310 : Shape := ⟨2, ![1024, 310]⟩
abbrev S1024 : Shape := ⟨1, ![1024]⟩
abbrev S32x310 : Shape := ⟨2, ![32, 310]⟩
abbrev S1x310 : Shape := ⟨2, ![1, 310]⟩
abbrev S_ : Shape := ⟨0, ![]⟩
abbrev S1x1024 : Shape := ⟨2, ![1, 1024]⟩
abbrev S32x1x1024 : Shape := ⟨3, ![32, 1, 1024]⟩
abbrev S1x1024x1024 : Shape := ⟨3, ![1, 1024, 1024]⟩
abbrev S1x1x1024 : Shape := ⟨3, ![1, 1, 1024]⟩
abbrev S1024x1024 : Shape := ⟨2, ![1024, 1024]⟩

abbrev nBuf : Space → Nat
  | .hbm => 56
  | .vmem => 14
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S310x1024, .f32⟩
  | .hbm, ⟨3, _⟩ => ⟨S310, .f32⟩
  | .hbm, ⟨4, _⟩ => ⟨S1024x310, .f32⟩
  | .hbm, ⟨5, _⟩ => ⟨S1024, .f32⟩
  | .hbm, ⟨6, _⟩ => ⟨S310x1024, .f32⟩
  | .hbm, ⟨7, _⟩ => ⟨S310, .f32⟩
  | .hbm, ⟨8, _⟩ => ⟨S1024x310, .f32⟩
  | .hbm, ⟨9, _⟩ => ⟨S1024, .f32⟩
  | .hbm, ⟨10, _⟩ => ⟨S1024x310, .f32⟩
  | .hbm, ⟨11, _⟩ => ⟨S32x310, .f32⟩
  | .hbm, ⟨12, _⟩ => ⟨S1x310, .f32⟩
  | .hbm, ⟨13, _⟩ => ⟨S32x310, .f32⟩
  | .hbm, ⟨14, _⟩ => ⟨S32x310, .f32⟩
  | .hbm, ⟨15, _⟩ => ⟨S_, .f32⟩
  | .hbm, ⟨16, _⟩ => ⟨S32x310, .f32⟩
  | .hbm, ⟨17, _⟩ => ⟨S32x310, .f32⟩
  | .hbm, ⟨18, _⟩ => ⟨S310x1024, .f32⟩
  | .hbm, ⟨19, _⟩ => ⟨S32x1024, .f32⟩
  | .hbm, ⟨20, _⟩ => ⟨S1x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S_, .f32⟩
  | .hbm, ⟨26, _⟩ => ⟨S32x1024, .f32⟩
  | .hbm, ⟨27, _⟩ => ⟨S32x1024, .f32⟩
  | .hbm, ⟨28, _⟩ => ⟨S_, .f32⟩
  | .hbm, ⟨29, _⟩ => ⟨S32x1024, .f32⟩
  | .hbm, ⟨30, _⟩ => ⟨S32x1024, .f32⟩
  | .hbm, ⟨31, _⟩ => ⟨S32x1x1024, .f32⟩
  | .hbm, ⟨32, _⟩ => ⟨S1024x310, .f32⟩
  | .hbm, ⟨33, _⟩ => ⟨S32x310, .f32⟩
  | .hbm, ⟨34, _⟩ => ⟨S1x310, .f32⟩
  | .hbm, ⟨35, _⟩ => ⟨S32x310, .f32⟩
  | .hbm, ⟨36, _⟩ => ⟨S32x310, .f32⟩
  | .hbm, ⟨37, _⟩ => ⟨S_, .f32⟩
  | .hbm, ⟨38, _⟩ => ⟨S32x310, .f32⟩
  | .hbm, ⟨39, _⟩ => ⟨S32x310, .f32⟩
  | .hbm, ⟨40, _⟩ => ⟨S310x1024, .f32⟩
  | .hbm, ⟨41, _⟩ => ⟨S32x1024, .f32⟩
  | .hbm, ⟨42, _⟩ => ⟨S1x1024, .f32⟩
  | .hbm, ⟨43, _⟩ => ⟨S32x1024, .f32⟩
  | .hbm, ⟨44, _⟩ => ⟨S32x1024, .f32⟩
  | .hbm, ⟨45, _⟩ => ⟨S32x1024, .f32⟩
  | .hbm, ⟨46, _⟩ => ⟨S32x1024, .f32⟩
  | .hbm, ⟨47, _⟩ => ⟨S_, .f32⟩
  | .hbm, ⟨48, _⟩ => ⟨S32x1024, .f32⟩
  | .hbm, ⟨49, _⟩ => ⟨S32x1024, .f32⟩
  | .hbm, ⟨50, _⟩ => ⟨S_, .f32⟩
  | .hbm, ⟨51, _⟩ => ⟨S32x1024, .f32⟩
  | .hbm, ⟨52, _⟩ => ⟨S32x1024, .f32⟩
  | .hbm, ⟨53, _⟩ => ⟨S32x1x1024, .f32⟩
  | .hbm, ⟨54, _⟩ => ⟨S32x1x1024, .f32⟩
  | .hbm, ⟨55, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .f32⟩
  | .local _ .vmem, ⟨13, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_cst : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S310x1024_S1024x310_1_0 : S310x1024.Transposes [1, 0] S1024x310
  bcast_S310_S1x310_1 : S310.BroadcastsInDim S1x310 (![1] : Fin 1 → Fin S1x310.rank)
  bcast_S1x310_S32x310_0_1 : S1x310.BroadcastsInDim S32x310 (![0, 1] : Fin 2 → Fin S32x310.rank)
  bcast_S_S32x310 : S_.BroadcastsInDim S32x310 (![] : Fin 0 → Fin S32x310.rank)
  transposes_S1024x310_S310x1024_1_0 : S1024x310.Transposes [1, 0] S310x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  shapeCasts_S32x1024_S32x1x1024 : S32x1024.ShapeCasts S32x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [0] S1024
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  broadcasts_S1x1024_S1024x1024 : S1x1024.Broadcasts S1024x1024
  shapeCasts_S1024x1024_S1x1024x1024 : S1024x1024.ShapeCasts S1x1024x1024
  dot_S32x1024_S1024x310_S32x310_1_0_0_1_n_n_wf : DotDims.WF S32x1024 S1024x310 S32x310 [1] [0] [0] [1] [] []
  dot_S32x310_S310x1024_S32x1024_1_0_0_1_n_n_wf : DotDims.WF S32x310 S310x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .f32 = 32 ∨ (Rect.block (s := S32x1x1024) S1x1x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S32x1024x1024.size a
  hwx1_0 : ∀ i : grid1.Coords, EltTy.bits .f32 = 32 ∨ (Rect.block (s := S32x1024x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S32x1x1024.size a
  hwx1_1 : ∀ i : grid1.Coords, EltTy.bits .f32 = 32 ∨ (Rect.block (s := S32x1x1024) S1x1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S32x1x1024.size a
  hwx1_2 : ∀ i : grid1.Coords, EltTy.bits .f32 = 32 ∨ (Rect.block (s := S32x1x1024) S1x1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S32x1x1024.size a
  hwx1_3 : ∀ i : grid1.Coords, EltTy.bits .f32 = 32 ∨ (Rect.block (s := S32x1x1024) S1x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S32x1024x1024.size a
  hwx1_4 : ∀ i : grid1.Coords, EltTy.bits .f32 = 32 ∨ (Rect.block (s := S32x1024x1024) S1x1024x1024.size (cc1_transform_4 i) (hinb1_4 i)).WholeWords (EltTy.packing .f32)

variable [Facts₀]

def dot_S32x1024_S1024x310_S32x310_1_0_0_1_n_n : DotDims S32x1024 S1024x310 S32x310 where
  lhsContracting := [1]
  rhsContracting := [0]
  lhsNonContracting := [0]
  rhsNonContracting := [1]
  lhsBatch := []
  rhsBatch := []
  wf := dot_S32x1024_S1024x310_S32x310_1_0_0_1_n_n_wf
def dot_S32x310_S310x1024_S32x1024_1_0_0_1_n_n : DotDims S32x310 S310x1024 S32x1024 where
  lhsContracting := [1]
  rhsContracting := [0]
  lhsNonContracting := [0]
  rhsNonContracting := [1]
  lhsBatch := []
  rhsBatch := []
  wf := dot_S32x310_S310x1024_S32x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1x1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x1024x1024 : Shape := ⟨3, ![32, 1024, 1024]⟩
abbrev S32x1024 : Shape := ⟨2, ![32, 1024]⟩
abbrev S310x1024 : Shape := ⟨2, ![310, 1024]⟩
abbrev S310 : Shape := ⟨1, ![310]⟩
abbrev S1024x310 : Shape := ⟨2, ![1024, 310]⟩
abbrev S1024 : Shape := ⟨1, ![1024]⟩
abbrev S32x310 : Shape := ⟨2, ![32, 310]⟩
abbrev S1x310 : Shape := ⟨2, ![1, 310]⟩
abbrev S_ : Shape := ⟨0, ![]⟩
abbrev S1x1024 : Shape := ⟨2, ![1, 1024]⟩
abbrev S32x1x1024 : Shape := ⟨3, ![32, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S310x1024, .f32⟩
  | .hbm, ⟨3, _⟩ => ⟨S310, .f32⟩
  | .hbm, ⟨4, _⟩ => ⟨S1024x310, .f32⟩
  | .hbm, ⟨5, _⟩ => ⟨S1024, .f32⟩
  | .hbm, ⟨6, _⟩ => ⟨S310x1024, .f32⟩
  | .hbm, ⟨7, _⟩ => ⟨S310, .f32⟩
  | .hbm, ⟨8, _⟩ => ⟨S1024x310, .f32⟩
  | .hbm, ⟨9, _⟩ => ⟨S1024, .f32⟩
  | .hbm, ⟨10, _⟩ => ⟨S1024x310, .f32⟩
  | .hbm, ⟨11, _⟩ => ⟨S32x310, .f32⟩
  | .hbm, ⟨12, _⟩ => ⟨S1x310, .f32⟩
  | .hbm, ⟨13, _⟩ => ⟨S32x310, .f32⟩
  | .hbm, ⟨14, _⟩ => ⟨S32x310, .f32⟩
  | .hbm, ⟨15, _⟩ => ⟨S_, .f32⟩
  | .hbm, ⟨16, _⟩ => ⟨S32x310, .f32⟩
  | .hbm, ⟨17, _⟩ => ⟨S32x310, .f32⟩
  | .hbm, ⟨18, _⟩ => ⟨S310x1024, .f32⟩
  | .hbm, ⟨19, _⟩ => ⟨S32x1024, .f32⟩
  | .hbm, ⟨20, _⟩ => ⟨S1x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S_, .f32⟩
  | .hbm, ⟨26, _⟩ => ⟨S32x1024, .f32⟩
  | .hbm, ⟨27, _⟩ => ⟨S32x1024, .f32⟩
  | .hbm, ⟨28, _⟩ => ⟨S_, .f32⟩
  | .hbm, ⟨29, _⟩ => ⟨S32x1024, .f32⟩
  | .hbm, ⟨30, _⟩ => ⟨S32x1024, .f32⟩
  | .hbm, ⟨31, _⟩ => ⟨S1024x310, .f32⟩
  | .hbm, ⟨32, _⟩ => ⟨S32x310, .f32⟩
  | .hbm, ⟨33, _⟩ => ⟨S1x310, .f32⟩
  | .hbm, ⟨34, _⟩ => ⟨S32x310, .f32⟩
  | .hbm, ⟨35, _⟩ => ⟨S32x310, .f32⟩
  | .hbm, ⟨36, _⟩ => ⟨S_, .f32⟩
  | .hbm, ⟨37, _⟩ => ⟨S32x310, .f32⟩
  | .hbm, ⟨38, _⟩ => ⟨S32x310, .f32⟩
  | .hbm, ⟨39, _⟩ => ⟨S310x1024, .f32⟩
  | .hbm, ⟨40, _⟩ => ⟨S32x1024, .f32⟩
  | .hbm, ⟨41, _⟩ => ⟨S1x1024, .f32⟩
  | .hbm, ⟨42, _⟩ => ⟨S32x1024, .f32⟩
  | .hbm, ⟨43, _⟩ => ⟨S32x1024, .f32⟩
  | .hbm, ⟨44, _⟩ => ⟨S32x1024, .f32⟩
  | .hbm, ⟨45, _⟩ => ⟨S32x1024, .f32⟩
  | .hbm, ⟨46, _⟩ => ⟨S_, .f32⟩
  | .hbm, ⟨47, _⟩ => ⟨S32x1024, .f32⟩
  | .hbm, ⟨48, _⟩ => ⟨S32x1024, .f32⟩
  | .hbm, ⟨49, _⟩ => ⟨S_, .f32⟩
  | .hbm, ⟨50, _⟩ => ⟨S32x1024, .f32⟩
  | .hbm, ⟨51, _⟩ => ⟨S32x1024, .f32⟩
  | .hbm, ⟨52, _⟩ => ⟨S_, .f32⟩
  | .hbm, ⟨53, _⟩ => ⟨S32x1024, .f32⟩
  | .hbm, ⟨54, _⟩ => ⟨S32x1x1024, .f32⟩
  | .hbm, ⟨55, _⟩ => ⟨S32x1x1024, .f32⟩
  | .hbm, ⟨56, _⟩ => ⟨S32x1x1024, .f32⟩
  | .hbm, ⟨57, _⟩ => ⟨S32x1x1024, .f32⟩
  | .hbm, ⟨58, _⟩ => ⟨S32x1024x1024, .f32⟩
  | .hbm, ⟨59, _⟩ => ⟨S32x1024x1024, .f32⟩
  | .hbm, ⟨60, _⟩ => ⟨S_, .f32⟩
  | .hbm, ⟨61, _⟩ => ⟨S32x1024x1024, .f32⟩
  | .hbm, ⟨62, _⟩ => ⟨S32x1024x1024, .f32⟩
  | .hbm, ⟨63, _⟩ => ⟨S32x1024x1024, .f32⟩
  | .hbm, ⟨64, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_cst : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  transposes_S310x1024_S1024x310_1_0 : S310x1024.Transposes [1, 0] S1024x310
  bcast_S310_S1x310_1 : S310.BroadcastsInDim S1x310 (![1] : Fin 1 → Fin S1x310.rank)
  bcast_S1x310_S32x310_0_1 : S1x310.BroadcastsInDim S32x310 (![0, 1] : Fin 2 → Fin S32x310.rank)
  bcast_S_S32x310 : S_.BroadcastsInDim S32x310 (![] : Fin 0 → Fin S32x310.rank)
  transposes_S1024x310_S310x1024_1_0 : S1024x310.Transposes [1, 0] S310x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  reducesTo_S32x1024x1024_S32x1024_d1 : S32x1024x1024.ReducesTo [1] S32x1024
  h_S_ : 0 < S_.numel
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  dot_S32x1024_S1024x310_S32x310_1_0_0_1_n_n_wf : DotDims.WF S32x1024 S1024x310 S32x310 [1] [0] [0] [1] [] []
  dot_S32x310_S310x1024_S32x1024_1_0_0_1_n_n_wf : DotDims.WF S32x310 S310x1024 S32x1024 [1] [0] [0] [1] [] []

variable [Facts₀]

def dot_S32x1024_S1024x310_S32x310_1_0_0_1_n_n : DotDims S32x1024 S1024x310 S32x310 where
  lhsContracting := [1]
  rhsContracting := [0]
  lhsNonContracting := [0]
  rhsNonContracting := [1]
  lhsBatch := []
  rhsBatch := []
  wf := dot_S32x1024_S1024x310_S32x310_1_0_0_1_n_n_wf
def dot_S32x310_S310x1024_S32x1024_1_0_0_1_n_n : DotDims S32x310 S310x1024 S32x1024 where
  lhsContracting := [1]
  rhsContracting := [0]
  lhsNonContracting := [0]
  rhsNonContracting := [1]
  lhsBatch := []
  rhsBatch := []
  wf := dot_S32x310_S310x1024_S32x1024_1_0_0_1_n_n_wf

class Facts : Prop extends Facts₀ where

variable [Facts]
-- ==== Proof.Payloads.lean ====
/-
  What each kernel body stores, read at one index over the extended reals.

  The first body sums a [1, 1024, 1024] tile over its middle axis: the stored [1, 1, 1024] row holds, at lane d,
  the sum over k of the tile at (0, k, d).  The second body combines a tile with three [1, 1, 1024] rows: at
  (0, j, d) it stores  row1 d · row3 d + (row2 d · tile (j, d)) · 1024,  the last factor the word of 1024.0 kept as
  written.  Both are read through the unit-axis casts and the one-row broadcast, coordinate by coordinate.
-/
import proofs.«146048_j54820962566527_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The index a sum over the rows of a [1024, 1024] tile inserts at lane d and row k is (k, d). -/
theorem lift_rows (h : S1024x1024.Reduces [0] S1024) (d k : Fin 1024) :
    h.lift (ix1 d) k = ix2 k d :=
  funext fun a => Fin.ext (by match a with | ⟨0, _⟩ => rfl | ⟨1, _⟩ => rfl)

/-- The first body's stored row at lane d: the column sum of the tile. -/
theorem sum_pay_apply (x0 : FVec Ideal S1x1024x1024 .f32) (u0 u1 : Fin 1) (d : Fin 1024) :
    k0_pay1 (F := Ideal) x0 (ix3 u0 u1 d) = ∑ k : Fin 1024, x0 (ix3 (0 : Fin 1) k d) := by
  unfold k0_pay1
  refine (shapeCast_ab_1ab_apply _ _ u0 u1 d).trans ?_
  refine (shapeCast_a_1a_apply _ _ u1 d).trans ?_
  refine (Ideal.multiReduction_add_single _ _ _ _ _ (ix1 d)).trans ?_
  refine Finset.sum_congr rfl fun k _ => ?_
  refine (congrArg _ (lift_rows _ d k)).trans ?_
  exact shapeCast_1ab_ab_apply _ _ k d

/-- The second body's stored tile at (j, d). -/
theorem out_pay_apply (x0 : FVec Ideal S1x1024x1024 .f32) (x1 x2 x3 : FVec Ideal S1x1x1024 .f32)
    (u : Fin 1) (j d : Fin 1024) :
    k1_pay1 (F := Ideal) x0 x1 x2 x3 (ix3 u j d)
      = x1 (ix3 (0 : Fin 1) (0 : Fin 1) d) * x3 (ix3 (0 : Fin 1) (0 : Fin 1) d)
        + (x2 (ix3 (0 : Fin 1) (0 : Fin 1) d) * x0 (ix3 (0 : Fin 1) j d)) * Ideal.ofBits .f32 0x44800000#32 := by
  unfold k1_pay1
  refine (shapeCast_ab_1ab_apply _ _ u j d).trans ?_
  simp only [addf_apply, mulf_apply, broadcast_apply, broadcastTo_1b_ab_apply, shapeCast_1ab_ab_apply]
  rfl

end Cert.KernelIdeal.Payload

end
-- ==== Proof.Spec.lean ====
/-
  The mathematics of the two programs, stated once over the extended reals and over literal shapes.

  v is a batch of 32 matrices of 1024 rows and 1024 lanes.  `colSum v` is, per batch and lane, the sum of the 1024 rows,
  kept as a single row.  `combine v g1 g2 s` is, at batch b, row j, lane d,
      g1 (b, d) · s (b, d) + (g2 (b, d) · v (b, j, d)) · 1024,
  where g1, g2 and s are single rows per batch and 1024 is the word 0x44800000 read as it stands.
-/
import Idealize.ShloMosaic.PureOps.Ideal
import Idealize.ShloMosaic.Lib.ValueIdx

noncomputable section

namespace Cert.Spec

open Idealize.ShloMosaic Idealize.ShloMosaic.ValueIdx

/-- batch × rows × lanes -/
abbrev Cube : Shape := ⟨3, ![32, 1024, 1024]⟩
/-- batch × one row × lanes -/
abbrev Rows : Shape := ⟨3, ![32, 1, 1024]⟩

/-- Per batch and lane, the sum over the rows. -/
def colSum (v : FVec Ideal Cube .f32) : FVec Ideal Rows .f32 :=
  fun i => ∑ k : Fin 1024, v (ix3 (i 0 : Fin 32) k (i 2 : Fin 1024))

/-- The gated combination: the first gate times the row sum, plus the second gate times the entry, times 1024. -/
def combine (v : FVec Ideal Cube .f32) (g1 g2 s : FVec Ideal Rows .f32) : FVec Ideal Cube .f32 :=
  fun i => g1 (ix3 (i 0 : Fin 32) (0 : Fin 1) (i 2 : Fin 1024)) * s (ix3 (i 0 : Fin 32) (0 : Fin 1) (i 2 : Fin 1024))
    + (g2 (ix3 (i 0 : Fin 32) (0 : Fin 1) (i 2 : Fin 1024)) * v i) * Ideal.ofBits .f32 0x44800000#32

end Cert.Spec

end
-- ==== Proof.SumRegion.lean ====
/-
  The first region: what its output array holds when the region is left.

  At grid point t the input window's block is batch t of the array the region finds, whole in rows and lanes; the body
  stores that tile's column sums; the output window's block at point t is row-batch t of the output array.  So every
  point writes back its block of ONE whole-array function, `Spec.colSum` of the input array, and the 32 blocks tile the
  output array: it ends holding `Spec.colSum` of the input array.  All of it for any contents `V` the region is entered at.
-/
import proofs.«146048_j54820962566527_1_alg».proof.Proof.Gen.KernelIdeal.Frame
import proofs.«146048_j54820962566527_1_alg».proof.Proof.Payloads
import proofs.«146048_j54820962566527_1_alg».proof.Proof.Spec
import Idealize.ShloMosaic.Lib.Pipeline.Value

set_option maxRecDepth 16384

noncomputable section

namespace Cert.KernelIdeal.SumRegion

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0, 0] : Fin 3 → Nat) = fun _ => 0 := funext fun a => by fin_cases a <;> rfl

/-- Where the two windows' blocks lie at point t: block t along the batch axis, block 0 along the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input block at point t, read at (0, k, d), is the array at (t, k, d). -/
theorem iblk_apply (c : Dev nD) (t : Fin cfg0.N) (x : S1x1024x1024.Idx) (i : S32x1024x1024.Idx)
    (h0 : (i 0).val = t.val) (h1 : (i 1).val = (x 1).val) (h2 : (i 2).val = (x 2).val) :
    (iblk0 V c 0 t : FVec Ideal S1x1024x1024 .f32) x = (V c main_arg0 : FVec Ideal S32x1024x1024 .f32) i := by
  obtain ⟨e0, e1, e2, -, -, -⟩ := idx_facts t
  have hx : (x 0).val < 1 := (x 0).isLt
  unfold iblk0
  rw [View.read_apply]
  show V c main_arg0 _ = V c main_arg0 _
  refine congrArg (V c main_arg0) ?_
  funext a
  apply Fin.ext
  match a with
  | ⟨0, _⟩ => show win0_0.index t (0 : Fin 3) * 1 + 1 * (x 0).val = (i 0).val; omega
  | ⟨1, _⟩ => show win0_0.index t (1 : Fin 3) * 1024 + 1 * (x 1).val = (i 1).val; omega
  | ⟨2, _⟩ => show win0_0.index t (2 : Fin 3) * 1024 + 1 * (x 2).val = (i 2).val; omega

/-- What point t writes back is its block of the column sums of the array the region found. -/
theorem flushed_eq (c : Dev nD) (t : Fin cfg0.N) :
    (dat0 V c).flushed 1 t = ((cfg0.win 1).blk t).view.read (Elt Ideal) (Spec.colSum (V c main_arg0)) := by
  show (cfg0.win 1).cut (grid0.coords t) ((dat0 V c).after 1 t) = _
  rw [after0_1]
  unfold out0_1
  rw [View.canon_unit_zero hz]
  simp only [View.ld_unit_zero (S := S1x1024x1024) hz]
  obtain ⟨-, -, -, e0, e1, e2⟩ := idx_facts t
  funext y
  obtain ⟨u0, u1, d, rfl⟩ : ∃ (u0 u1 : Fin 1) (d : Fin 1024), y = ix3 u0 u1 d := ⟨y 0, y 1, y 2, eq_ix3 y⟩
  show k0_pay1 (F := Ideal) (iblk0 V c 0 t) (ix3 u0 u1 d)
    = Spec.colSum (V c main_arg0) (((cfg0.win 1).blk t).view.emb (ix3 u0 u1 d))
  rw [Payload.sum_pay_apply]
  unfold Spec.colSum
  refine Finset.sum_congr rfl fun k _ => ?_
  refine iblk_apply V c t _ _ ?_ rfl ?_
  · show (((cfg0.win 1).blk t).view.emb (ix3 u0 u1 d) (0 : Fin 3)).val = t.val
    show win0_1.index t (0 : Fin 3) * 1 + 1 * u0.val = t.val
    omega
  · show (((cfg0.win 1).blk t).view.emb (ix3 u0 u1 d) (2 : Fin 3)).val = d.val
    show win0_1.index t (2 : Fin 3) * 1024 + 1 * d.val = d.val
    omega

/-- An index of the output array is in point t's block iff each coordinate is in the block's range on its axis. -/
theorem mem_blk (t : Fin cfg0.N) (i : S32x1x1024.Idx) :
    i ∈ ((cfg0.win 1).blk t).view.set ↔ ∀ a : Fin 3, win0_1.index t a * S1x1x1024.size a ≤ (i a).val ∧ (i a).val < win0_1.index t a * S1x1x1024.size a + S1x1x1024.size a := by
  show i ∈ ((View.whole main_v36).slice (win0_1.rect t)).set ↔ _
  rw [View.set_slice_whole, Rect.mem_set_unit]
  exact Iff.rfl

/-- The output array when the region is left: the column sums of the input array as the region found it. -/
theorem final (c : Dev nD) : (dat0 V c).arrAt 1 cfg0.N = Spec.colSum (V c main_arg0) :=
  (dat0 V c).arrAt_eq_of_cover 1 (Spec.colSum (V c main_arg0)) (fun t _ => flushed_eq V c t) fun i => by
    have hi0 : (i 0).val < 32 := (i 0).isLt
    have hi1 : (i 1).val < 1 := (i 1).isLt
    have hi2 : (i 2).val < 1024 := (i 2).isLt
    have hN : cfg0.N = 32 := N_0
    obtain ⟨t, ht⟩ : ∃ t : Fin cfg0.N, t.val = (i 0).val := ⟨⟨(i 0).val, by rw [hN]; exact hi0⟩, rfl⟩
    refine ⟨t, flush0_1 t, ?_⟩
    obtain ⟨-, -, -, e0, e1, e2⟩ := idx_facts t
    rw [mem_blk]
    intro a
    match a with
    | ⟨0, _⟩ => show win0_1.index t (0 : Fin 3) * 1 ≤ (i 0).val ∧ (i 0).val < win0_1.index t (0 : Fin 3) * 1 + 1; omega
    | ⟨1, _⟩ => show win0_1.index t (1 : Fin 3) * 1 ≤ (i 1).val ∧ (i 1).val < win0_1.index t (1 : Fin 3) * 1 + 1; omega
    | ⟨2, _⟩ => show win0_1.index t (2 : Fin 3) * 1024 ≤ (i 2).val ∧ (i 2).val < win0_1.index t (2 : Fin 3) * 1024 + 1024; omega

end Cert.KernelIdeal.SumRegion

end
-- ==== Proof.OutRegion.lean ====
/-
  The second region: what its output array holds when the region is left.

  At grid point t the tile window's block is batch t of its array, and each of the three row windows' blocks is row-batch t
  of its array; the body stores  row1 · row3 + (row2 · tile) · 1024;  the output window's block at point t is batch t of
  the output array.  So every point writes back its block of ONE whole-array function, `Spec.combine` of the four arrays
  the region found, and the 32 blocks tile the output array.  All of it for any contents `V` the region is entered at.
-/
import proofs.«146048_j54820962566527_1_alg».proof.Proof.Gen.KernelIdeal.Frame
import proofs.«146048_j54820962566527_1_alg».proof.Proof.Payloads
import proofs.«146048_j54820962566527_1_alg».proof.Proof.Spec
import Idealize.ShloMosaic.Lib.Pipeline.Value

set_option maxRecDepth 16384

noncomputable section

namespace Cert.KernelIdeal.OutRegion

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0, 0] : Fin 3 → Nat) = fun _ => 0 := funext fun a => by fin_cases a <;> rfl

/-- Where the five windows' blocks lie at point t: block t along the batch axis, block 0 along the other two. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0) :=
  (by decide +kernel : ∀ t : Fin grid1.N, _)

/-- The tile window's block at point t, read at (0, j, d), is its array at (t, j, d). -/
theorem tile_apply (c : Dev nD) (t : Fin cfg1.N) (x : S1x1024x1024.Idx) (i : S32x1024x1024.Idx)
    (h0 : (i 0).val = t.val) (h1 : (i 1).val = (x 1).val) (h2 : (i 2).val = (x 2).val) :
    (iblk1 V c 0 t : FVec Ideal S1x1024x1024 .f32) x = (V c main_arg0 : FVec Ideal S32x1024x1024 .f32) i := by
  obtain ⟨⟨e0, e1, e2⟩, -, -, -, -⟩ := idx_facts t
  have hx : (x 0).val < 1 := (x 0).isLt
  unfold iblk1
  rw [View.read_apply]
  show V c main_arg0 _ = V c main_arg0 _
  refine congrArg (V c main_arg0) ?_
  funext a
  apply Fin.ext
  match a with
  | ⟨0, _⟩ => show win1_0.index t (0 : Fin 3) * 1 + 1 * (x 0).val = (i 0).val; omega
  | ⟨1, _⟩ => show win1_0.index t (1 : Fin 3) * 1024 + 1 * (x 1).val = (i 1).val; omega
  | ⟨2, _⟩ => show win1_0.index t (2 : Fin 3) * 1024 + 1 * (x 2).val = (i 2).val; omega

/-- The first gate's row block at point t, read at (0, 0, d), is its array at (t, 0, d). -/
theorem gate1_apply (c : Dev nD) (t : Fin cfg1.N) (x : S1x1x1024.Idx) (i : S32x1x1024.Idx)
    (h0 : (i 0).val = t.val) (h1 : (i 1).val = (x 1).val) (h2 : (i 2).val = (x 2).val) :
    (iblk1 V c 1 t : FVec Ideal S1x1x1024 .f32) x = (V c main_v17 : FVec Ideal S32x1x1024 .f32) i := by
  obtain ⟨-, ⟨e0, e1, e2⟩, -, -, -⟩ := idx_facts t
  have hx : (x 0).val < 1 := (x 0).isLt
  unfold iblk1
  rw [View.read_apply]
  show V c main_v17 _ = V c main_v17 _
  refine congrArg (V c main_v17) ?_
  funext a
  apply Fin.ext
  match a with
  | ⟨0, _⟩ => show win1_1.index t (0 : Fin 3) * 1 + 1 * (x 0).val = (i 0).val; omega
  | ⟨1, _⟩ => show win1_1.index t (1 : Fin 3) * 1 + 1 * (x 1).val = (i 1).val; omega
  | ⟨2, _⟩ => show win1_1.index t (2 : Fin 3) * 1024 + 1 * (x 2).val = (i 2).val; omega

/-- The second gate's row block at point t likewise. -/
theorem gate2_apply (c : Dev nD) (t : Fin cfg1.N) (x : S1x1x1024.Idx) (i : S32x1x1024.Idx)
    (h0 : (i 0).val = t.val) (h1 : (i 1).val = (x 1).val) (h2 : (i 2).val = (x 2).val) :
    (iblk1 V c 2 t : FVec Ideal S1x1x1024 .f32) x = (V c main_v35 : FVec Ideal S32x1x1024 .f32) i := by
  obtain ⟨-, -, ⟨e0, e1, e2⟩, -, -⟩ := idx_facts t
  have hx : (x 0).val < 1 := (x 0).isLt
  unfold iblk1
  rw [View.read_apply]
  show V c main_v35 _ = V c main_v35 _
  refine congrArg (V c main_v35) ?_
  funext a
  apply Fin.ext
  match a with
  | ⟨0, _⟩ => show win1_2.index t (0 : Fin 3) * 1 + 1 * (x 0).val = (i 0).val; omega
  | ⟨1, _⟩ => show win1_2.index t (1 : Fin 3) * 1 + 1 * (x 1).val = (i 1).val; omega
  | ⟨2, _⟩ => show win1_2.index t (2 : Fin 3) * 1024 + 1 * (x 2).val = (i 2).val; omega

/-- The row-sum window's block at point t likewise. -/
theorem sums_apply (c : Dev nD) (t : Fin cfg1.N) (x : S1x1x1024.Idx) (i : S32x1x1024.Idx)
    (h0 : (i 0).val = t.val) (h1 : (i 1).val = (x 1).val) (h2 : (i 2).val = (x 2).val) :
    (iblk1 V c 3 t : FVec Ideal S1x1x1024 .f32) x = (V c main_v36 : FVec Ideal S32x1x1024 .f32) i := by
  obtain ⟨-, -, -, ⟨e0, e1, e2⟩, -⟩ := idx_facts t
  have hx : (x 0).val < 1 := (x 0).isLt
  unfold iblk1
  rw [View.read_apply]
  show V c main_v36 _ = V c main_v36 _
  refine congrArg (V c main_v36) ?_
  funext a
  apply Fin.ext
  match a with
  | ⟨0, _⟩ => show win1_3.index t (0 : Fin 3) * 1 + 1 * (x 0).val = (i 0).val; omega
  | ⟨1, _⟩ => show win1_3.index t (1 : Fin 3) * 1 + 1 * (x 1).val = (i 1).val; omega
  | ⟨2, _⟩ => show win1_3.index t (2 : Fin 3) * 1024 + 1 * (x 2).val = (i 2).val; omega

/-- What point t writes back is its block of the gated combination of the four arrays the region found. -/
theorem flushed_eq (c : Dev nD) (t : Fin cfg1.N) :
    (dat1 V c).flushed 4 t = ((cfg1.win 4).blk t).view.read (Elt Ideal)
      (Spec.combine (V c main_arg0) (V c main_v17) (V c main_v35) (V c main_v36)) := by
  show (cfg1.win 4).cut (grid1.coords t) ((dat1 V c).after 4 t) = _
  rw [after1_4]
  unfold out1_4
  rw [View.canon_unit_zero hz]
  simp only [View.ld_unit_zero (S := S1x1024x1024) hz, View.ld_unit_zero (S := S1x1x1024) hz]
  obtain ⟨-, -, -, -, ⟨e0, e1, e2⟩⟩ := idx_facts t
  funext y
  obtain ⟨u, j, d, rfl⟩ : ∃ (u : Fin 1) (j d : Fin 1024), y = ix3 u j d := ⟨y 0, y 1, y 2, eq_ix3 y⟩
  obtain ⟨E, hE0, hE1, hE2, hE⟩ : ∃ E : S32x1024x1024.Idx, (E 0).val = t.val ∧ (E 1).val = j.val ∧ (E 2).val = d.val
      ∧ ((cfg1.win 4).blk t).view.emb (ix3 u j d) = E := by
    refine ⟨_, ?_, ?_, ?_, rfl⟩
    · show win1_4.index t (0 : Fin 3) * 1 + 1 * u.val = t.val; omega
    · show win1_4.index t (1 : Fin 3) * 1024 + 1 * j.val = j.val; omega
    · show win1_4.index t (2 : Fin 3) * 1024 + 1 * d.val = d.val; omega
  show k1_pay1 (F := Ideal) (iblk1 V c 0 t) (iblk1 V c 1 t) (iblk1 V c 2 t) (iblk1 V c 3 t) (ix3 u j d)
    = Spec.combine (V c main_arg0) (V c main_v17) (V c main_v35) (V c main_v36) (((cfg1.win 4).blk t).view.emb (ix3 u j d))
  rw [Payload.out_pay_apply, hE]
  unfold Spec.combine
  rw [tile_apply V c t (ix3 (0 : Fin 1) j d) E hE0 hE1 hE2,
    gate1_apply V c t (ix3 (0 : Fin 1) (0 : Fin 1) d) (ix3 (E 0 : Fin 32) (0 : Fin 1) (E 2 : Fin 1024)) hE0 rfl hE2,
    gate2_apply V c t (ix3 (0 : Fin 1) (0 : Fin 1) d) (ix3 (E 0 : Fin 32) (0 : Fin 1) (E 2 : Fin 1024)) hE0 rfl hE2,
    sums_apply V c t (ix3 (0 : Fin 1) (0 : Fin 1) d) (ix3 (E 0 : Fin 32) (0 : Fin 1) (E 2 : Fin 1024)) hE0 rfl hE2]

/-- An index of the output array is in point t's block iff each coordinate is in the block's range on its axis. -/
theorem mem_blk (t : Fin cfg1.N) (i : S32x1024x1024.Idx) :
    i ∈ ((cfg1.win 4).blk t).view.set ↔ ∀ a : Fin 3, win1_4.index t a * S1x1024x1024.size a ≤ (i a).val ∧ (i a).val < win1_4.index t a * S1x1024x1024.size a + S1x1024x1024.size a := by
  show i ∈ ((View.whole main_v37).slice (win1_4.rect t)).set ↔ _
  rw [View.set_slice_whole, Rect.mem_set_unit]
  exact Iff.rfl

/-- The output array when the region is left: the gated combination of the four arrays as the region found them. -/
theorem final (c : Dev nD) : (dat1 V c).arrAt 4 cfg1.N
    = Spec.combine (V c main_arg0) (V c main_v17) (V c main_v35) (V c main_v36) :=
  (dat1 V c).arrAt_eq_of_cover 4 (Spec.combine (V c main_arg0) (V c main_v17) (V c main_v35) (V c main_v36))
    (fun t _ => flushed_eq V c t) fun i => by
    have hi0 : (i 0).val < 32 := (i 0).isLt
    have hi1 : (i 1).val < 1024 := (i 1).isLt
    have hi2 : (i 2).val < 1024 := (i 2).isLt
    have hN : cfg1.N = 32 := N_1
    obtain ⟨t, ht⟩ : ∃ t : Fin cfg1.N, t.val = (i 0).val := ⟨⟨(i 0).val, by rw [hN]; exact hi0⟩, rfl⟩
    refine ⟨t, flush1_4 t, ?_⟩
    obtain ⟨-, -, -, -, ⟨e0, e1, e2⟩⟩ := idx_facts t
    rw [mem_blk]
    intro a
    match a with
    | ⟨0, _⟩ => show win1_4.index t (0 : Fin 3) * 1 ≤ (i 0).val ∧ (i 0).val < win1_4.index t (0 : Fin 3) * 1 + 1; omega
    | ⟨1, _⟩ => show win1_4.index t (1 : Fin 3) * 1024 ≤ (i 1).val ∧ (i 1).val < win1_4.index t (1 : Fin 3) * 1024 + 1024; omega
    | ⟨2, _⟩ => show win1_4.index t (2 : Fin 3) * 1024 ≤ (i 2).val ∧ (i 2).val < win1_4.index t (2 : Fin 3) * 1024 + 1024; omega

end Cert.KernelIdeal.OutRegion

end
-- ==== Proof.Gate.lean ====
/-
  The gate both programs compute on the host before anything else, named once:
      gate q Wc bc We be = 1 / (1 + exp (-(max (q · Wcᵀ + bc) 0 · Weᵀ + be))),
  a [32, 1024] array, written operation by operation as the host performs it; and the same array stored row-major
  with a unit middle axis, [32, 1, 1024].
-/
import proofs.«146048_j54820962566527_1_alg».proof.Proof.Gen.KernelIdeal

noncomputable section

namespace Cert.KernelIdeal.Gate

open Cert.KernelIdeal Cert.KernelIdeal.Gen Idealize.ShloMosaic

variable {F : FTy → Type} [FloatOps F]

/-- The logistic function of a two-layer map of `q`: a matrix product, a bias, a maximum with zero, a second matrix
    product and bias, then `1 / (1 + exp (-·))`. -/
def gate (q : FVec F S32x1024 .f32) (Wc : FVec F S310x1024 .f32) (bc : FVec F S310 .f32)
    (We : FVec F S1024x310 .f32) (be : FVec F S1024 .f32) : FVec F S32x1024 .f32 :=
  Host.divf (broadcastInDim S32x1024 ![] bcast_S_S32x1024 (constant S_ .f32 0x3F800000#32))
    (addf (broadcastInDim S32x1024 ![] bcast_S_S32x1024 (constant S_ .f32 0x3F800000#32))
      (Host.exp (Host.negf (addf
        (Host.dotGeneral dot_S32x310_S310x1024_S32x1024_1_0_0_1_n_n none
          (maximumf
            (addf (Host.dotGeneral dot_S32x1024_S1024x310_S32x310_1_0_0_1_n_n none q
                (transpose S1024x310 [1, 0] Wc transposes_S310x1024_S1024x310_1_0))
              (broadcastInDim S32x310 ![0, 1] bcast_S1x310_S32x310_0_1 (broadcastInDim S1x310 ![1] bcast_S310_S1x310_1 bc)))
            (broadcastInDim S32x310 ![] bcast_S_S32x310 (constant S_ .f32 0x00000000#32)))
          (transpose S310x1024 [1, 0] We transposes_S1024x310_S310x1024_1_0))
        (broadcastInDim S32x1024 ![0, 1] bcast_S1x1024_S32x1024_0_1 (broadcastInDim S1x1024 ![1] bcast_S1024_S1x1024_1 be))))))

/-- The gate stored with a unit middle axis. -/
def gateRows (q : FVec F S32x1024 .f32) (Wc : FVec F S310x1024 .f32) (bc : FVec F S310 .f32)
    (We : FVec F S1024x310 .f32) (be : FVec F S1024 .f32) : FVec F S32x1x1024 .f32 :=
  shapeCast S32x1x1024 (gate q Wc bc We be) shapeCasts_S32x1024_S32x1x1024

end Cert.KernelIdeal.Gate

end
-- ==== Proof.Entry.lean ====
/-
  The kernel program's result, as one function of the argument arrays.

  Before the two regions the host computes, twice, a gate  1 / (1 + exp (-(max (q · Wcᵀ + bc) 0 · Weᵀ + be)))  and stores
  each, row-major, with a unit middle axis.  Nothing between there and the second region writes those two arrays or the
  first argument, and the first region leaves in its output array the column sums of the first argument.  So the second
  region is entered at: the first argument as launched, the two gates, the column sums; and it leaves `Spec.combine` of
  them in the result array.
-/
import proofs.«146048_j54820962566527_1_alg».proof.Proof.KernelRun
import proofs.«146048_j54820962566527_1_alg».proof.Proof.SumRegion
import proofs.«146048_j54820962566527_1_alg».proof.Proof.OutRegion
import proofs.«146048_j54820962566527_1_alg».proof.Proof.Gate
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo
open Cert.KernelIdeal.Gate (gate gateRows)

variable {F : FTy → Type} [FloatOps F]
variable (m : (ℓ : Loc nD τ sig) → Buf (Elt F) ℓ) (ρ : Dev nD → PrngReg)

/-- The second region finds the first argument as launched: no host operation writes it and the first region only reads it. -/
theorem entry_tile (c : Dev nD) : V6 m ρ c main_arg0 = m ((c : Thread nD τ).loc main_arg0) :=
  ((W7_arr m ρ c 0).trans (((dat1 (V6 m ρ) c).arrAt_in 0 rfl _).trans (A_eq1 (V6 m ρ) c 0))).symm.trans (W7_main_arg0 m ρ c)

/-- So did the first region. -/
theorem entry_tile0 (c : Dev nD) : V5 m ρ c main_arg0 = m ((c : Thread nD τ).loc main_arg0) :=
  ((W6_arr m ρ c 0).trans (((dat0 (V5 m ρ) c).arrAt_in 0 rfl _).trans (A_eq0 (V5 m ρ) c 0))).symm.trans (entry_tile m ρ c)

set_option maxHeartbeats 2000000 in
/-- The second region finds the first gate where the host left it. -/
theorem entry_gate1 (c : Dev nD) : V6 m ρ c main_v17
    = gateRows (m ((c : Thread nD τ).loc main_arg1)) (m ((c : Thread nD τ).loc main_arg2)) (m ((c : Thread nD τ).loc main_arg3))
        (m ((c : Thread nD τ).loc main_arg4)) (m ((c : Thread nD τ).loc main_arg5)) := by
  refine (W6_of_ne m ρ c main_v17 (by decide)).trans ?_
  show StableHlo.after hostOps0_4 (StableHlo.after hostOps0_3 (StableHlo.after hostOps0_2 (StableHlo.after hostOps0_1
    (StableHlo.after hostOps0 (W0 m ρ c))))) (Proc.devRef .tc main_v17) = _
  after_results_simp <;> rfl

set_option maxHeartbeats 2000000 in
/-- And the second gate. -/
theorem entry_gate2 (c : Dev nD) : V6 m ρ c main_v35
    = gateRows (m ((c : Thread nD τ).loc main_arg1)) (m ((c : Thread nD τ).loc main_arg6)) (m ((c : Thread nD τ).loc main_arg7))
        (m ((c : Thread nD τ).loc main_arg8)) (m ((c : Thread nD τ).loc main_arg9)) := by
  refine (W6_of_ne m ρ c main_v35 (by decide)).trans ?_
  show StableHlo.after hostOps0_4 (StableHlo.after hostOps0_3 (StableHlo.after hostOps0_2 (StableHlo.after hostOps0_1
    (StableHlo.after hostOps0 (W0 m ρ c))))) (Proc.devRef .tc main_v35) = _
  after_results_simp <;> rfl

end Cert.KernelIdeal.Entry

namespace Cert.KernelIdeal.Entry

open Cert.KernelIdeal Cert.KernelIdeal.Gen
open Idealize.ShloMosaic Idealize.ShloMosaic.TcCoe Idealize.SL.Sem Idealize.ShloMosaic.StableHlo
open Cert.KernelIdeal.Gate (gate gateRows)

variable (m : (ℓ : Loc nD τ sig) → Buf (Elt Ideal) ℓ) (ρ : Dev nD → PrngReg)

/-- The second region finds, in the first region's output array, the column sums of the first argument. -/
theorem entry_sums (c : Dev nD) : V6 m ρ c main_v36 = Spec.colSum (m ((c : Thread nD τ).loc main_arg0)) := by
  refine (W6_arr m ρ c 1).trans ?_
  rw [SumRegion.final (V5 m ρ) c, entry_tile0 m ρ c]

/-- The kernel program's result as a function of its arguments. -/
def result (c : Dev nD) : FVec Ideal S32x1024x1024 .f32 :=
  Spec.combine (m ((c : Thread nD τ).loc main_arg0))
    (gateRows (m ((c : Thread nD τ).loc main_arg1)) (m ((c : Thread nD τ).loc main_arg2)) (m ((c : Thread nD τ).loc main_arg3))
      (m ((c : Thread nD τ).loc main_arg4)) (m ((c : Thread nD τ).loc main_arg5)))
    (gateRows (m ((c : Thread nD τ).loc main_arg1)) (m ((c : Thread nD τ).loc main_arg6)) (m ((c : Thread nD τ).loc main_arg7))
      (m ((c : Thread nD τ).loc main_arg8)) (m ((c : Thread nD τ).loc main_arg9)))
    (Spec.colSum (m ((c : Thread nD τ).loc main_arg0)))

/-- The result array after the last segment holds it. -/
theorem result_eq (c : Dev nD) : W7 m ρ c (Proc.devRef .tc main_v37) = result m c := by
  refine (W7_arr m ρ c 4).trans ?_
  rw [OutRegion.final (V6 m ρ) c, entry_tile m ρ c, entry_gate1 m ρ c, entry_gate2 m ρ c, entry_sums m ρ c]
  rfl

/-- The kernel program's run, read: the result array at `result`, every argument as launched. -/
theorem run : θ_run defs (onTc (τ := τ) (main (F := Ideal))) ⟨m, fun _ => 0, ρ⟩ (fun r => ∀ c : Dev nD,
      r.2.mem ((c.tc : Thread nD τ).loc main_v37) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (Run.run_main m ρ)

end Cert.KernelIdeal.Entry

end
-- ==== Proof.LibMidUnit.lean ====
/-
  A matrix stored with a unit axis in the middle.  A row-major cast of an `[a, b]` array to `[a, 1, b]` keeps every
  entry where it was: position `p · b + q` of the matrix is position `(p · 1 + 0) · b + q` of the result.  Read at an
  index given by coordinates.
-/
import Idealize.ShloMosaic.Lib.ValueIdx
import Idealize.ShloMosaic.Lib.Pipeline.Value

namespace Cert.LibMidUnit

open Idealize.ShloMosaic Idealize.ShloMosaic.ValueIdx

variable {α : Type}

/-- An `[a, b]` array cast to `[a, 1, b]` reads, at `(p, u, q)`, the array at `(p, q)`, whatever the unit
    coordinate `u`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

end Cert.LibMidUnit
-- ==== Proof.RefValue.lean ====
/-
  The reference program's result, as the same function of the argument arrays.

  The reference computes the two gates by the same host operations, sums the first argument over its rows on the host
  (the initial value 0 plus the sum), multiplies the first gate by that row sum, the second gate by the entries and then by
  1024 from the LEFT, and adds.  Read at (b, j, d) through its broadcasts this is
      g1 (b, d) · (0 + Σ_k v (b, k, d)) + 1024 · (g2 (b, d) · v (b, j, d)),
  which is `Spec.combine` at (b, j, d): the zero drops, and the product with 1024 commutes on the extended reals.
-/
import proofs.«146048_j54820962566527_1_alg».proof.Proof.Gen.ReferenceIdeal.Read
import proofs.«146048_j54820962566527_1_alg».proof.Proof.Gate
import proofs.«146048_j54820962566527_1_alg».proof.Proof.Spec
import proofs.«146048_j54820962566527_1_alg».proof.Proof.LibMidUnit

noncomputable section

namespace Cert.ReferenceIdeal.RefValue

open Cert.ReferenceIdeal Cert.ReferenceIdeal.Gen Cert.ReferenceIdeal.Read
open Idealize.ShloMosaic Idealize.ShloMosaic.ValueIdx
open Cert.KernelIdeal.Gate (gate gateRows)

/-- The reference's first gate is the gate: the same operations in the same order. -/
theorem gate1_eq (x1 : FVec Ideal S32x1024 .f32) (x2 : FVec Ideal S310x1024 .f32) (x3 : FVec Ideal S310 .f32)
    (x4 : FVec Ideal S1024x310 .f32) (x5 : FVec Ideal S1024 .f32) :
    val_main_v16 (F := Ideal) x1 x2 x3 x4 x5 = gate (F := Ideal) x1 x2 x3 x4 x5 := rfl

/-- And its second. -/
theorem gate2_eq (x1 : FVec Ideal S32x1024 .f32) (x6 : FVec Ideal S310x1024 .f32) (x7 : FVec Ideal S310 .f32)
    (x8 : FVec Ideal S1024x310 .f32) (x9 : FVec Ideal S1024 .f32) :
    val_main_v33 (F := Ideal) x1 x6 x7 x8 x9 = gate (F := Ideal) x1 x6 x7 x8 x9 := rfl

/-- The reference's last stage is `Spec.combine` of the first argument, the two stored gates and the row sums. -/
theorem result_eq (x0 : FVec Ideal S32x1024x1024 .f32) (x1 : FVec Ideal S32x1024 .f32) (x2 : FVec Ideal S310x1024 .f32)
    (x3 : FVec Ideal S310 .f32) (x4 : FVec Ideal S1024x310 .f32) (x5 : FVec Ideal S1024 .f32) (x6 : FVec Ideal S310x1024 .f32)
    (x7 : FVec Ideal S310 .f32) (x8 : FVec Ideal S1024x310 .f32) (x9 : FVec Ideal S1024 .f32) :
    val_main_v44 (F := Ideal) x0 x1 x2 x3 x4 x5 x6 x7 x8 x9
      = Spec.combine x0 (gateRows (F := Ideal) x1 x2 x3 x4 x5) (gateRows (F := Ideal) x1 x6 x7 x8 x9) (Spec.colSum x0) := by
  funext i
  obtain ⟨b, j, d, rfl⟩ : ∃ (b : Fin 32) (j d : Fin 1024), i = ix3 b j d := ⟨i 0, i 1, i 2, eq_ix3 i⟩
  have e1 : idx_main_v36 (idx_main_v43 (ix3 b j d)) = ix2 b d :=
    funext fun a => Fin.ext (by match a with | ⟨0, _⟩ => rfl | ⟨1, _⟩ => rfl)
  have e2 : idx_main_v38 (idx_main_v39 (ix3 b j d)) = ix2 b d :=
    funext fun a => Fin.ext (by match a with | ⟨0, _⟩ => rfl | ⟨1, _⟩ => rfl)
  have e3 : ∀ k : Fin 1024, idx_main_v34 (idx_main_v35 (idx_main_v43 (ix3 b j d))) k = ix3 b k d := fun k =>
    funext fun a => Fin.ext (by match a with | ⟨0, _⟩ => rfl | ⟨1, _⟩ => rfl | ⟨2, _⟩ => rfl)
  rw [val_main_v44_apply, val_main_v43_apply, val_main_v37_apply, val_main_v36_apply, val_main_v35_apply,
    val_main_v34_apply, val_main_cst_3_apply, val_main_v42_apply, val_main_v41_apply, val_main_cst_4_apply,
    val_main_v40_apply, val_main_v39_apply, val_main_v38_apply, gate1_eq, gate2_eq, e1, e2]
  simp only [e3]
  unfold Spec.combine Spec.colSum gateRows
  show gate (F := Ideal) x1 x2 x3 x4 x5 (ix2 b d) * (Ideal.ofBits .f32 0x00000000#32 + ∑ k : Fin 1024, x0 (ix3 b k d))
      + Ideal.ofBits .f32 0x44800000#32 * (gate (F := Ideal) x1 x6 x7 x8 x9 (ix2 b d) * x0 (ix3 b j d))
    = shapeCast Cert.KernelIdeal.S32x1x1024 (gate (F := Ideal) x1 x2 x3 x4 x5) _ (ix3 b (0 : Fin 1) d) * (∑ k : Fin 1024, x0 (ix3 b k d))
      + (shapeCast Cert.KernelIdeal.S32x1x1024 (gate (F := Ideal) x1 x6 x7 x8 x9) _ (ix3 b (0 : Fin 1) d) * x0 (ix3 b j d))
        * Ideal.ofBits .f32 0x44800000#32
  rw [Cert.LibMidUnit.shapeCast_ab_a1b_apply, Cert.LibMidUnit.shapeCast_ab_a1b_apply, Ideal.ofBits_zero_f32, zero_add,
    mul_comm (Ideal.ofBits .f32 0x44800000#32)]

end Cert.ReferenceIdeal.RefValue

end
-- ==== Proof.lean ====
/-
  The certificate.  Both programs compute, at batch b, row j, lane d,
      g1 (b, d) · Σ_k v (b, k, d)  +  1024 · g2 (b, d) · v (b, j, d),
  g1 and g2 two logistic gates of a two-layer map of `q`, computed on the host by the same operations in both programs.
  The kernel program sums the rows of each batch in a first grid of 32 points and combines in a second grid of 32 points;
  the reference does everything on the host.  The two results are one function of the arguments (`Spec.combine`): the
  kernel's by reading what each region's write-backs leave, the reference's by reading its operations at an index; the
  only algebra between them is `0 + s = s` and the commutativity of the product with 1024 on the extended reals, so the
  precondition is never opened.  The idealization rewrote nothing, so `preserves` is `True`.
-/
import proofs.«146048_j54820962566527_1_alg».proof.Defs
import proofs.«146048_j54820962566527_1_alg».proof.Proof.Gen.Kernel
import proofs.«146048_j54820962566527_1_alg».proof.Proof.Gen.Kernel.Skeleton
import proofs.«146048_j54820962566527_1_alg».proof.Proof.Gen.Kernel.Launch
import proofs.«146048_j54820962566527_1_alg».proof.Proof.Gen.Kernel.Points
import proofs.«146048_j54820962566527_1_alg».proof.Proof.Gen.Kernel.Frame
import proofs.«146048_j54820962566527_1_alg».proof.Proof.Gen.KernelIdeal
import proofs.«146048_j54820962566527_1_alg».proof.Proof.Gen.KernelIdeal.Skeleton
import proofs.«146048_j54820962566527_1_alg».proof.Proof.Gen.KernelIdeal.Launch
import proofs.«146048_j54820962566527_1_alg».proof.Proof.Gen.KernelIdeal.Points
import proofs.«146048_j54820962566527_1_alg».proof.Proof.Gen.KernelIdeal.Frame
import proofs.«146048_j54820962566527_1_alg».proof.Proof.Gen.ReferenceIdeal
import proofs.«146048_j54820962566527_1_alg».proof.Proof.Gen.ReferenceIdeal.Run
import proofs.«146048_j54820962566527_1_alg».proof.Proof.Gen.ReferenceIdeal.Read
import proofs.«146048_j54820962566527_1_alg».proof.Proof.Gen.Pre_finite_inputs
import proofs.«146048_j54820962566527_1_alg».proof.Proof.Entry
import proofs.«146048_j54820962566527_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: `Spec.combine` of the first
    argument, the two gates and the row sums. -/
theorem algebraic : Cert.algebraic_KernelIdeal_ReferenceIdeal := by
  intro m ρ m' ρ' _ hagree
  refine ⟨fun c => Cert.KernelIdeal.Entry.result m c, Cert.KernelIdeal.Entry.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v44_eq, Cert.ReferenceIdeal.RefValue.result_eq, a0, a1, a2, a3, a4, a5, a6, a7, a8, a9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
